-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_100" .f32 0x3C23D70A#32 ((1 / 100 : ℝ) : EReal)
  ∧ IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S1048576x50x2 : Shape := ⟨3, ![1048576, 50, 2]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S1048576x50x2 : S_.BroadcastsInDim S1048576x50x2 (![] : Fin 0 → Fin S1048576x50x2.rank)
  reducesTo_S1048576x50x2_S_d0_1_2 : S1048576x50x2.ReducesTo [0, 1, 2] S_

variable [Facts]

def fn {F : FTy → Type} [FloatOps F] (main_arg0 : FVec F S1048576x4 .f32) (main_arg1 : FVec F S1048576x50x2 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S1048576x50x2 .f32 := Host.absf main_arg1
  let main_cst_0 : FVec F S_ .f32 := constant S_ .f32 0x7F800000#32
  let main_v5 : FVec F S1048576x50x2 .f32 := broadcastInDim S1048576x50x2 ![] bcast_S_S1048576x50x2 main_cst_0
  let main_v6 : IVec S1048576x50x2 1 := cmpf .olt main_v4 main_v5
  let main_c_1 : IVec S_ 1 := constantI S_ 1 1#1
  let main_v7 : IVec S_ 1 := (fun x v => Host.reduce IntOp.andi x v reducesTo_S1048576x50x2_S_d0_1_2 h_S_) main_v6 main_c_1
  let main_v8 : IVec S_ 1 := andi main_v3 main_v7
  main_v8
-- ==== Kernel.lean ====
abbrev S1048576x4 : Shape := ⟨2, ![1048576, 4]⟩
abbrev S1048576x50x2 : Shape := ⟨3, ![1048576, 50, 2]⟩
abbrev S1x100 : Shape := ⟨2, ![1, 100]⟩
abbrev S1048576x100 : Shape := ⟨2, ![1048576, 100]⟩
abbrev S2x1x1 : Shape := ⟨3, ![2, 1, 1]⟩
abbrev S16384x4 : Shape := ⟨2, ![16384, 4]⟩
abbrev S16384x100 : Shape := ⟨2, ![16384, 100]⟩
abbrev S1x1x1 : Shape := ⟨3, ![1, 1, 1]⟩
abbrev S8x128 : Shape := ⟨2, ![8, 128]⟩
abbrev S16384 : Shape := ⟨1, ![16384]⟩
abbrev S16384x1 : Shape := ⟨2, ![16384, 1]⟩
abbrev S16x8x128 : Shape := ⟨3, ![16, 8, 128]⟩
abbrev S1x8x128 : Shape := ⟨3, ![1, 8, 128]⟩
abbrev S1 : Shape := ⟨1, ![1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S1048576x50x2, .f32⟩
  | .hbm, ⟨2, _⟩ => ⟨S1x100, .f32⟩
  | .hbm, ⟨3, _⟩ => ⟨S1048576x100, .f32⟩
  | .hbm, ⟨4, _⟩ => ⟨S2x1x1, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S16384x4, .f32⟩
  | .local _ .vmem, ⟨1, _⟩ => ⟨S16384x4, .f32⟩
  | .local _ .vmem, ⟨2, _⟩ => ⟨S16384x100, .f32⟩
  | .local _ .vmem, ⟨3, _⟩ => ⟨S16384x100, .f32⟩
  | .local _ .vmem, ⟨4, _⟩ => ⟨S1x100, .f32⟩
  | .local _ .vmem, ⟨5, _⟩ => ⟨S1x1x1, .f32⟩
  | .local _ .vmem, ⟨6, _⟩ => ⟨S1x1x1, .f32⟩
  | .local _ .vmem, ⟨7, _⟩ => ⟨S8x128, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c31_i32 : BitVec 32 := 31#32
  let v141 : BitVec 1 := Scalar.cmpi .eq arg1 c31_i32
  let v142 : BitVec 32 := Scalar.extui v141
  let c0_i32_74 : BitVec 32 := 0#32
  let v143 : BitVec 1 := Scalar.cmpi .ne v142 c0_i32_74
  v143

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1048576x50x2_S1048576x100 : S1048576x50x2.ShapeCasts S1048576x100
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x1_S1x1x1_0_0_0 : ∀ a, (![0, 0, 0] : Fin 3 → Nat) a + S1x1x1.size a ≤ S1x1x1.size a
  h_S1x1x1 : 0 < S1x1x1.numel
  inb_S16384x100_S16384x100_0_0 : ∀ a, (![0, 0] : Fin 2 → Nat) a + S16384x100.size a ≤ S16384x100.size a
  h_S16384x100 : 0 < S16384x100.numel
  shapeCasts_S16384x100_S16384x100 : S16384x100.ShapeCasts S16384x100
  inb_S1x100_S1x100_0_0 : ∀ a, (![0, 0] : Fin 2 → Nat) a + S1x100.size a ≤ S1x100.size a
  h_S1x100 : 0 < S1x100.numel
  reduces_S16384x100_S16384 : S16384x100.Reduces [1] S16384
  broadcasts_S1x100_S16384x100 : S1x100.Broadcasts S16384x100
  inb_S16384x4_S16384x4_0_0 : ∀ a, (![0, 0] : Fin 2 → Nat) a + S16384x4.size a ≤ S16384x4.size a
  h_S16384x4 : 0 < S16384x4.numel
  slices_S16384x4_o0_0_S16384x1 : S16384x4.Slices ![0, 0] S16384x1
  shapeCasts_S16384x1_S16384 : S16384x1.ShapeCasts S16384
  slices_S16384x4_o0_1_S16384x1 : S16384x4.Slices ![0, 1] S16384x1
  shapeCasts_S16384_S16x8x128 : S16384.ShapeCasts S16x8x128
  slices_S16x8x128_o0_0_0_S1x8x128 : S16x8x128.Slices ![0, 0, 0] S1x8x128
  shapeCasts_S1x8x128_S8x128 : S1x8x128.ShapeCasts S8x128
  slices_S16x8x128_o1_0_0_S1x8x128 : S16x8x128.Slices ![1, 0, 0] S1x8x128
  slices_S16x8x128_o2_0_0_S1x8x128 : S16x8x128.Slices ![2, 0, 0] S1x8x128
  slices_S16x8x128_o3_0_0_S1x8x128 : S16x8x128.Slices ![3, 0, 0] S1x8x128
  slices_S16x8x128_o4_0_0_S1x8x128 : S16x8x128.Slices ![4, 0, 0] S1x8x128
  slices_S16x8x128_o5_0_0_S1x8x128 : S16x8x128.Slices ![5, 0, 0] S1x8x128
  slices_S16x8x128_o6_0_0_S1x8x128 : S16x8x128.Slices ![6, 0, 0] S1x8x128
  slices_S16x8x128_o7_0_0_S1x8x128 : S16x8x128.Slices ![7, 0, 0] S1x8x128
  slices_S16x8x128_o8_0_0_S1x8x128 : S16x8x128.Slices ![8, 0, 0] S1x8x128
  slices_S16x8x128_o9_0_0_S1x8x128 : S16x8x128.Slices ![9, 0, 0] S1x8x128
  slices_S16x8x128_o10_0_0_S1x8x128 : S16x8x128.Slices ![10, 0, 0] S1x8x128
  slices_S16x8x128_o11_0_0_S1x8x128 : S16x8x128.Slices ![11, 0, 0] S1x8x128
  slices_S16x8x128_o12_0_0_S1x8x128 : S16x8x128.Slices ![12, 0, 0] S1x8x128
  slices_S16x8x128_o13_0_0_S1x8x128 : S16x8x128.Slices ![13, 0, 0] S1x8x128
  slices_S16x8x128_o14_0_0_S1x8x128 : S16x8x128.Slices ![14, 0, 0] S1x8x128
  slices_S16x8x128_o15_0_0_S1x8x128 : S16x8x128.Slices ![15, 0, 0] S1x8x128
  shapeCasts_S8x128_S1x8x128 : S8x128.ShapeCasts S1x8x128
  reduces_S1x8x128_S1 : S1x8x128.Reduces [1, 2] S1
  shapeCasts_S1_S1x1x1 : S1.ShapeCasts S1x1x1
  inpos_S1x1x1_p0_0_0 : ∀ a, (![0, 0, 0] : Fin 3 → Nat) a < S1x1x1.size a
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S1048576x4.size a
  hwx0_0 : ∀ i : grid0.Coords, EltTy.bits .f32 = 32 ∨ (Rect.block (s := S1048576x4) S16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x100.size a ≤ S1048576x100.size a
  hwx0_1 : ∀ i : grid0.Coords, EltTy.bits .f32 = 32 ∨ (Rect.block (s := S1048576x100) S16384x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S1048576x4 : Shape := ⟨2, ![1048576, 4]⟩
abbrev S1048576x50x2 : Shape := ⟨3, ![1048576, 50, 2]⟩
abbrev S1048576x2 : Shape := ⟨2, ![1048576, 2]⟩
abbrev S_ : Shape := ⟨0, ![]⟩
abbrev S1048576 : Shape := ⟨1, ![1048576]⟩

abbrev nBuf : Space → Nat
  | .hbm => 19
  | .vmem => 0
  | .smem => 0
  | _ => 0

abbrev bufTy : (tb : Table) → Fin (tcTables nBuf tb) → BufTy
  | .hbm, ⟨0, _⟩ => ⟨S1048576x4, .f32⟩
  | .hbm, ⟨1, _⟩ => ⟨S1048576x50x2, .f32⟩
  | .hbm, ⟨2, _⟩ => ⟨S1048576x2, .f32⟩
  | .hbm, ⟨3, _⟩ => ⟨S_, .f32⟩
  | .hbm, ⟨4, _⟩ => ⟨S1048576x2, .f32⟩
  | .hbm, ⟨5, _⟩ => ⟨S_, .f32⟩
  | .hbm, ⟨6, _⟩ => ⟨S1048576x2, .f32⟩
  | .hbm, ⟨7, _⟩ => ⟨S1048576x2, .f32⟩
  | .hbm, ⟨8, _⟩ => ⟨S1048576x2, .f32⟩
  | .hbm, ⟨9, _⟩ => ⟨S1048576x2, .f32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  slices_S1048576x4_S1048576x2_0_0 : S1048576x4.Slices ![0, 0] S1048576x2
  reducesTo_S1048576x50x2_S1048576x2_d1 : S1048576x50x2.ReducesTo [1] S1048576x2
  h_S_ : 0 < S_.numel
  bcast_S_S1048576x2 : S_.BroadcastsInDim S1048576x2 (![] : Fin 0 → Fin S1048576x2.rank)
  reducesTo_S1048576x2_S1048576_d1 : S1048576x2.ReducesTo [1] S1048576
  bcast_S_S1048576 : S_.BroadcastsInDim S1048576 (![] : Fin 0 → Fin S1048576.rank)
  reducesTo_S1048576_S_d0 : S1048576.ReducesTo [0] S_

variable [Facts₀]

class Facts : Prop extends Facts₀ where

variable [Facts]
-- ==== Proof.LibReadBack.lean ====
/-
  A load of a whole buffer after a list of stores whose LAST one covered the whole buffer reads that store's payload,
  whatever the earlier stores were: the read-back of an accumulator that is overwritten whole again and again.
-/
import Idealize.ShloMosaic.Lib.Pipeline.Value

noncomputable section

namespace Idealize.ShloMosaic.View

variable {Val : EltTy → Type} {S : Shape} {e : EltTy}

/-- Through the whole-shape rectangle at zero offsets (however the zeros are spelt), a covered load after the stores
    `⟨whole, w⟩ :: L` (last first) reads `w`. The singleton case is the library's `readCov_unit_zero`. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KernelPieces.lean ====
/-
  What one grid step leaves behind, as values of the step's three input blocks and of the accumulator it found:
  the body adds the 16 chunks of the step's per-row losses into the [8,128] accumulator one after the other (each
  store overwrites the whole accumulator, each later load reads the last store back); on a core's first step the
  accumulator is first zeroed and the output block zeroed; on a core's last step the output block is set to the
  sum of the accumulator's entries.
-/
import proofs.«420667_j27891517620670_4_alg».proof.Proof.Gen.KernelIdeal.Frame
import proofs.«420667_j27891517620670_4_alg».proof.Proof.LibReadBack
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator `a` after the step's 16 chunk additions: chunk 0 first, chunk 15 last. -/
def addChunks (x0 : Vec F S16384x4 .f32) (x1 : Vec F S16384x100 .f32) (x2 : Vec F S1x100 .f32) (a : Vec F S8x128 .f32) : FVec F S8x128 .f32 :=
  (k0_pay20 (k0_pay4 x1 x2 x0) (k0_pay19 (k0_pay4 x1 x2 x0) (k0_pay18 (k0_pay4 x1 x2 x0) (k0_pay17 (k0_pay4 x1 x2 x0) (k0_pay16 (k0_pay4 x1 x2 x0) (k0_pay15 (k0_pay4 x1 x2 x0) (k0_pay14 (k0_pay4 x1 x2 x0) (k0_pay13 (k0_pay4 x1 x2 x0) (k0_pay12 (k0_pay4 x1 x2 x0) (k0_pay11 (k0_pay4 x1 x2 x0) (k0_pay10 (k0_pay4 x1 x2 x0) (k0_pay9 (k0_pay4 x1 x2 x0) (k0_pay8 (k0_pay4 x1 x2 x0) (k0_pay7 (k0_pay4 x1 x2 x0) (k0_pay6 (k0_pay4 x1 x2 x0) (k0_pay5 x1 x2 x0 a))))))))))))))))

/-- A middle step: the accumulator it found plus the 16 chunks. -/
theorem sout_B (c : Dev nD) (i : grid0.Coords) (arg2 : Memref sig .tc .vmem S16384x4 .f32) (harg2 : arg2.IsWhole) (arg3 : Memref sig .tc .vmem S16384x100 .f32) (harg3 : arg3.IsWhole) (arg4 : Memref sig .tc .vmem S1x100 .f32) (harg4 : arg4.IsWhole) (arg5 : Memref sig .tc .vmem S1x1x1 .f32) (harg5 : arg5.IsWhole) (arg6 : Memref sig .tc .vmem S8x128 .f32) (harg6 : arg6.IsWhole) (hc0 : ¬cond0_0 i) (hc1 : ¬cond0_1 i) (x0 : Vec F S16384x4 .f32) (x1 : Vec F S16384x100 .f32) (x2 : Vec F S1x100 .f32) (xs0 : Vec F S8x128 .f32) :
    sout0_B_0 c i arg2 harg2 arg3 harg3 arg4 harg4 arg5 harg5 arg6 harg6 hc0 hc1 x0 x1 x2 xs0 = addChunks x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_cons_unit_zero (S := S8x128) hz2]
  simp only [View.readAt_eq_ld, harg2.read_unread, harg3.read_unread, harg4.read_unread, harg5.read_unread, harg6.read_unread,
    View.ld_unit_zero (S := S16384x100) hz2, View.ld_unit_zero (S := S1x100) hz2, View.ld_unit_zero (S := S16384x4) hz2,
    View.ld_unit_zero (S := S8x128) hz2, View.ld_unit_zero (S := S1x1x1) hz3,
    View.readCov_cons_unit_zero (S := S8x128) _ hz2, View.readCov_unit_zero (S := S8x128) _ hz2]
  rfl

/-- A core's last step: the same accumulator, -/
theorem sout_C (c : Dev nD) (i : grid0.Coords) (arg2 : Memref sig .tc .vmem S16384x4 .f32) (harg2 : arg2.IsWhole) (arg3 : Memref sig .tc .vmem S16384x100 .f32) (harg3 : arg3.IsWhole) (arg4 : Memref sig .tc .vmem S1x100 .f32) (harg4 : arg4.IsWhole) (arg5 : Memref sig .tc .vmem S1x1x1 .f32) (harg5 : arg5.IsWhole) (arg6 : Memref sig .tc .vmem S8x128 .f32) (harg6 : arg6.IsWhole) (hc0 : ¬cond0_0 i) (hc1 : cond0_1 i) (x0 : Vec F S16384x4 .f32) (x1 : Vec F S16384x100 .f32) (x2 : Vec F S1x100 .f32) (xs0 : Vec F S8x128 .f32) :
    sout0_C_0 c i arg2 harg2 arg3 harg3 arg4 harg4 arg5 harg5 arg6 harg6 hc0 hc1 x0 x1 x2 xs0 = addChunks x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_cons_unit_zero (S := S8x128) hz2]
  simp only [View.readAt_eq_ld, harg2.read_unread, harg3.read_unread, harg4.read_unread, harg5.read_unread, harg6.read_unread,
    View.ld_unit_zero (S := S16384x100) hz2, View.ld_unit_zero (S := S1x100) hz2, View.ld_unit_zero (S := S16384x4) hz2,
    View.ld_unit_zero (S := S8x128) hz2, View.ld_unit_zero (S := S1x1x1) hz3,
    View.readCov_cons_unit_zero (S := S8x128) _ hz2, View.readCov_unit_zero (S := S8x128) _ hz2]
  rfl

/-- and the output block at the lane sum of it. -/
theorem out_C (c : Dev nD) (i : grid0.Coords) (arg2 : Memref sig .tc .vmem S16384x4 .f32) (harg2 : arg2.IsWhole) (arg3 : Memref sig .tc .vmem S16384x100 .f32) (harg3 : arg3.IsWhole) (arg4 : Memref sig .tc .vmem S1x100 .f32) (harg4 : arg4.IsWhole) (arg5 : Memref sig .tc .vmem S1x1x1 .f32) (harg5 : arg5.IsWhole) (arg6 : Memref sig .tc .vmem S8x128 .f32) (harg6 : arg6.IsWhole) (hc0 : ¬cond0_0 i) (hc1 : cond0_1 i) (x0 : Vec F S16384x4 .f32) (x1 : Vec F S16384x100 .f32) (x2 : Vec F S1x100 .f32) (xs0 : Vec F S8x128 .f32) :
    out0_C_3 c i arg2 harg2 arg3 harg3 arg4 harg4 arg5 harg5 arg6 harg6 hc0 hc1 x0 x1 x2 xs0 = k0_pay1 (addChunks x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg5.read_unread, harg6.read_unread,
    View.ld_unit_zero (S := S16384x100) hz2, View.ld_unit_zero (S := S1x100) hz2, View.ld_unit_zero (S := S16384x4) hz2,
    View.ld_unit_zero (S := S8x128) hz2, View.ld_unit_zero (S := S1x1x1) hz3,
    View.readCov_cons_unit_zero (S := S8x128) _ hz2, View.readCov_unit_zero (S := S8x128) _ hz2]
  rfl

/-- A core's first step: the 16 chunks added to the zeroed accumulator. -/
theorem sout_A (c : Dev nD) (i : grid0.Coords) (arg2 : Memref sig .tc .vmem S16384x4 .f32) (harg2 : arg2.IsWhole) (arg3 : Memref sig .tc .vmem S16384x100 .f32) (harg3 : arg3.IsWhole) (arg4 : Memref sig .tc .vmem S1x100 .f32) (harg4 : arg4.IsWhole) (arg5 : Memref sig .tc .vmem S1x1x1 .f32) (harg5 : arg5.IsWhole) (arg6 : Memref sig .tc .vmem S8x128 .f32) (harg6 : arg6.IsWhole) (hc0 : cond0_0 i) (hc1 : ¬cond0_1 i) (x0 : Vec F S16384x4 .f32) (x1 : Vec F S16384x100 .f32) (x2 : Vec F S1x100 .f32) :
    sout0_A_0 c i arg2 harg2 arg3 harg3 arg4 harg4 arg5 harg5 arg6 harg6 hc0 hc1 x0 x1 x2 = addChunks x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x128) hz2]
  simp only [View.readAt_eq_ld, harg2.read_unread, harg3.read_unread, harg4.read_unread, harg5.read_unread, harg6.read_unread,
    View.ld_unit_zero (S := S16384x100) hz2, View.ld_unit_zero (S := S1x100) hz2, View.ld_unit_zero (S := S16384x4) hz2,
    View.ld_unit_zero (S := S8x128) hz2, View.ld_unit_zero (S := S1x1x1) hz3,
    View.readCov_cons_unit_zero (S := S8x128) _ hz2, View.readCov_unit_zero (S := S8x128) _ hz2]
  rfl

end Cert.KernelIdeal.Pieces

end
-- ==== Proof.KernelAcc.lean ====
/-
  The accumulator across the grid. The 64 grid points run in order; point `n` belongs to core `n / 32` and is that
  core's step `n % 32`. After point `n` the [8,128] accumulator holds the chunks of the core's steps so far: it is
  zeroed on a core's first step, otherwise it carries what the point before left. At a core's last step the output
  block is the lane sum of the accumulator.
-/
import proofs.«420667_j27891517620670_4_alg».proof.Proof.KernelPieces

set_option maxRecDepth 16384

noncomputable section

open Idealize.ShloMosaic Idealize.ShloMosaic.TcCoe Idealize.SL.Sem

namespace Cert.KernelIdeal.Acc

open Cert.KernelIdeal Cert.KernelIdeal.Gen Cert.KernelIdeal.Pieces

variable {F : FTy → Type} [FloatOps F] [Named F]
variable (m : (ℓ : Loc nD τ sig) → Buf (Elt F) ℓ)

/-- The three input blocks of point `t`, at their literal types: 16384 rows of `pred`, the same rows of `true`
    as 100 lanes, and the one row of signs. -/
abbrev predBlk (c : Dev nD) (t : Fin cfg0.N) : Vec F S16384x4 .f32 := iblk m c 0 t
abbrev trueBlk (c : Dev nD) (t : Fin cfg0.N) : Vec F S16384x100 .f32 := iblk m c 1 t
abbrev signBlk (c : Dev nD) (t : Fin cfg0.N) : Vec F S1x100 .f32 := iblk m c 2 t

/-- The accumulator after point `n`. -/
def accAfter (c : Dev nD) : (n : ℕ) → n < cfg0.N → Vec F S8x128 .f32
  | 0, h => addChunks (predBlk m c ⟨0, h⟩) (trueBlk m c ⟨0, h⟩) (signBlk m c ⟨0, h⟩) (k0_pay2 (F := F))
  | n + 1, h =>
    if (n + 1) % 32 = 0 then addChunks (predBlk m c ⟨n + 1, h⟩) (trueBlk m c ⟨n + 1, h⟩) (signBlk m c ⟨n + 1, h⟩) (k0_pay2 (F := F))
    else addChunks (predBlk m c ⟨n + 1, h⟩) (trueBlk m c ⟨n + 1, h⟩) (signBlk m c ⟨n + 1, h⟩) (accAfter c n (Nat.lt_of_succ_lt h))

theorem accAfter_first (c : Dev nD) (n : ℕ) (h : n < cfg0.N) (h0 : n % 32 = 0) :
    accAfter m c n h = addChunks (predBlk m c ⟨n, h⟩) (trueBlk m c ⟨n, h⟩) (signBlk m c ⟨n, h⟩) (k0_pay2 (F := F)) := by
  cases n with
  | zero => rfl
  | succ n => exact if_pos h0

theorem accAfter_next (c : Dev nD) (n : ℕ) (h : n + 1 < cfg0.N) (h0 : ¬(n + 1) % 32 = 0) :
    accAfter m c (n + 1) h = addChunks (predBlk m c ⟨n + 1, h⟩) (trueBlk m c ⟨n + 1, h⟩) (signBlk m c ⟨n + 1, h⟩) (accAfter m c n (Nat.lt_of_succ_lt h)) :=
  if_neg h0

/-- The generated contents of the carried scratch after point `n` are this accumulator: by induction on the point,
    each case's piece read as a value. -/
theorem scratch_eq (c : Dev nD) : ∀ (n : ℕ) (h : n < cfg0.N), (outsAt0 m c n h).2 = accAfter m c n h
  | 0, h => by
    have h1 : ¬(⟨0, h⟩ : Fin cfg0.N).val % 32 = 31 := by dsimp only; omega
    rw [outsAt0_A m c ⟨0, h⟩ rfl h1]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (predBlk m c ⟨0, h⟩) (trueBlk m c ⟨0, h⟩) (signBlk m c ⟨0, h⟩)
  | n + 1, h => by
    have ih := scratch_eq c n (Nat.lt_of_succ_lt h)
    by_cases h0 : (n + 1) % 32 = 0
    · have h1 : ¬(⟨n + 1, h⟩ : Fin cfg0.N).val % 32 = 31 := by dsimp only; omega
      rw [outsAt0_A m c ⟨n + 1, h⟩ h0 h1, accAfter_first m c (n + 1) h h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (predBlk m c ⟨n + 1, h⟩) (trueBlk m c ⟨n + 1, h⟩) (signBlk m c ⟨n + 1, h⟩)
    · rw [accAfter_next m c n h h0]
      by_cases h1 : (n + 1) % 32 = 31
      · rw [outsAt0_C m c ⟨n + 1, h⟩ h0 h1]
        dsimp only
        rw [sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (predBlk m c ⟨n + 1, h⟩) (trueBlk m c ⟨n + 1, h⟩) (signBlk m c ⟨n + 1, h⟩)]
        exact congrArg (addChunks (predBlk m c ⟨n + 1, h⟩) (trueBlk m c ⟨n + 1, h⟩) (signBlk m c ⟨n + 1, h⟩)) ih
      · rw [outsAt0_B m c ⟨n + 1, h⟩ h0 h1]
        dsimp only
        rw [sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (predBlk m c ⟨n + 1, h⟩) (trueBlk m c ⟨n + 1, h⟩) (signBlk m c ⟨n + 1, h⟩)]
        exact congrArg (addChunks (predBlk m c ⟨n + 1, h⟩) (trueBlk m c ⟨n + 1, h⟩) (signBlk m c ⟨n + 1, h⟩)) ih

/-- At a core's last step the output block is the lane sum of the accumulator that step leaves. -/
theorem out_last (c : Dev nD) (n : ℕ) (h : n + 1 < cfg0.N) (h1 : (n + 1) % 32 = 31) :
    (outsAt0 m c (n + 1) h).1 = k0_pay1 (accAfter m c (n + 1) h) := by
  have h0 : ¬(n + 1) % 32 = 0 := by omega
  rw [outsAt0_C m c ⟨n + 1, h⟩ h0 h1, accAfter_next m c n h h0]
  dsimp only
  rw [out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (predBlk m c ⟨n + 1, h⟩) (trueBlk m c ⟨n + 1, h⟩) (signBlk m c ⟨n + 1, h⟩)]
  exact congrArg (fun a => k0_pay1 (addChunks (predBlk m c ⟨n + 1, h⟩) (trueBlk m c ⟨n + 1, h⟩) (signBlk m c ⟨n + 1, h⟩) a)) (scratch_eq m c n (Nat.lt_of_succ_lt h))

end Cert.KernelIdeal.Acc

end
-- ==== Proof.LossAlgebra.lean ====
/-
  The arithmetic of the loss, free of any program: the per-row loss in the two forms the two programs compute it,
  the law that joins them over the reals, and the re-indexing of the total over all rows by (core, step, chunk,
  sublane, lane).
-/
import Idealize.ShloMosaic.PureOps.Ideal
import Idealize.ShloMosaic.PureOps.Ideal.Laws
import Mathlib.Algebra.BigOperators.Fin
import Mathlib.Algebra.BigOperators.Ring.Finset

noncomputable section

namespace Cert.LossAlgebra

open Idealize.ShloMosaic

/-- The float words both programs carry, read at the extended reals. -/
abbrev zeroW : EReal := Ideal.ofBits .f32 0x00000000#32
abbrev halfW : EReal := Ideal.ofBits .f32 0x3F000000#32
abbrev fiftyW : EReal := Ideal.ofBits .f32 0x42480000#32
abbrev oneW : EReal := Ideal.ofBits .f32 0x3F800000#32
abbrev negOneW : EReal := Ideal.ofBits .f32 0xBF800000#32
/-- The named reciprocal 1/100. -/
abbrev inv100 : EReal := ((1 / 100 : ℝ) : EReal)

/-- The sign lane: +1 at the even lanes (first channel), -1 at the odd ones (second channel). -/
def laneSign (j : Fin 100) : EReal := if j.val % 2 = 0 then oneW else negOneW

/-- One row's loss as the kernel forms it from the row's 100 interleaved lanes `x`, the sign lanes `s` and the two
    predicted means: with A the sum of all lanes and D the signed sum, the two channel means are (A + D)/100 and
    (A - D)/100. -/
def laneLoss (x s : Fin 100 → EReal) (p0 p1 : EReal) : EReal :=
  halfW * ((((∑ j, x j) + (∑ j, x j * s j)) * inv100 - p0) * (((∑ j, x j) + (∑ j, x j * s j)) * inv100 - p0)
    + (((∑ j, x j) - (∑ j, x j * s j)) * inv100 - p1) * (((∑ j, x j) - (∑ j, x j * s j)) * inv100 - p1))

/-- One row's loss as the reference forms it: per channel the mean over the 50 steps (a sum from zero, divided by 50)
    minus the predicted mean, squared; summed from zero over the two channels; halved. -/
def meanLoss (y : Fin 50 → Fin 2 → EReal) (p : Fin 2 → EReal) : EReal :=
  halfW * (zeroW + ∑ c : Fin 2, (Ideal.div (zeroW + ∑ t : Fin 50, y t c) fiftyW - p c)
    * (Ideal.div (zeroW + ∑ t : Fin 50, y t c) fiftyW - p c))

/-! ### The float words as reals -/

theorem zeroW_eq : zeroW = ((0 : ℝ) : EReal) := by
  simp [Ideal.ofBits, Ideal.ieee]

theorem halfW_eq : halfW = ((1 / 2 : ℝ) : EReal) := by
  simp [Ideal.ofBits, Ideal.ieee]
  rw [← EReal.coe_mul]
  norm_num

theorem fiftyW_eq : fiftyW = ((50 : ℝ) : EReal) := by
  simp [Ideal.ofBits, Ideal.ieee]
  rw [← EReal.coe_mul]
  norm_num

theorem oneW_eq : oneW = ((1 : ℝ) : EReal) := by
  simp [Ideal.ofBits, Ideal.ieee]
  rw [← EReal.coe_mul]
  norm_num

theorem negOneW_eq : negOneW = ((-1 : ℝ) : EReal) := by
  simp [Ideal.ofBits, Ideal.ieee]
  rw [← EReal.coe_mul]
  norm_num

/-- A finite sum of real coercions is the coercion of the real sum. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-! ### Lanes as (step, channel) pairs -/

/-- Lane `2 t + c` of the interleaved row: step `t`, channel `c`. -/
def lane (t : Fin 50) (c : Fin 2) : Fin 100 :=
  ⟨2 * t.val + c.val, by have := t.isLt; have := c.isLt; omega⟩

/-- The 100 lanes are the 50 × 2 (step, channel) pairs. -/
def laneEquiv : Fin 50 × Fin 2 ≃ Fin 100 where
  toFun p := lane p.1 p.2
  invFun j := (⟨j.val / 2, by have := j.isLt; omega⟩, ⟨j.val % 2, by omega⟩)
  left_inv := by
    rintro ⟨t, c⟩
    have := t.isLt; have := c.isLt
    ext <;> simp [lane] <;> omega
  right_inv := by
    intro j
    have := j.isLt
    ext
    simp [lane]
    omega

/-- A sum over the 100 lanes, split by step into its even and odd lane. -/
theorem sum_lanes (g : Fin 100 → ℝ) :
    ∑ j, g j = ∑ t : Fin 50, (g (lane t 0) + g (lane t 1)) := by
  rw [← Equiv.sum_comp laneEquiv g, Fintype.sum_prod_type]
  refine Finset.sum_congr rfl (fun t _ => ?_)
  rw [Fin.sum_univ_two]
  rfl

/-- The real sign at a lane. -/
def sgn (j : Fin 100) : ℝ := if j.val % 2 = 0 then 1 else -1

theorem laneSign_eq (j : Fin 100) : laneSign j = ((sgn j : ℝ) : EReal) := by
  unfold laneSign sgn
  split_ifs
  · exact oneW_eq
  · exact negOneW_eq

theorem sgn_even (t : Fin 50) : sgn (lane t 0) = 1 := by
  unfold sgn lane
  simp

theorem sgn_odd (t : Fin 50) : sgn (lane t 1) = -1 := by
  unfold sgn lane
  simp

/-- The law that joins the two forms, for real entries: the even lanes sum to (A + D)/2 and the odd ones to
    (A - D)/2, so each channel's mean is the same real on both sides. -/
theorem laneLoss_eq_meanLoss (x : Fin 100 → EReal) (p0 p1 : EReal)
    (hx : ∀ j, ∃ r : ℝ, x j = (r : EReal)) (h0 : ∃ r : ℝ, p0 = (r : EReal)) (h1 : ∃ r : ℝ, p1 = (r : EReal)) :
    laneLoss x laneSign p0 p1
      = meanLoss (fun t c => x ⟨2 * t.val + c.val, by have := t.isLt; have := c.isLt; omega⟩) ![p0, p1] := by
  choose xr hxr using hx
  obtain ⟨a, rfl⟩ := h0
  obtain ⟨b, rfl⟩ := h1
  obtain rfl : x = fun j => ((xr j : ℝ) : EReal) := funext hxr
  -- A is the even lanes plus the odd lanes, D the even lanes minus the odd ones
  have hA : ∑ j, xr j = (∑ t : Fin 50, xr (lane t 0)) + ∑ t : Fin 50, xr (lane t 1) := by
    rw [sum_lanes, Finset.sum_add_distrib]
  have hD : ∑ j, xr j * sgn j = (∑ t : Fin 50, xr (lane t 0)) - ∑ t : Fin 50, xr (lane t 1) := by
    rw [sum_lanes, ← Finset.sum_sub_distrib]
    refine Finset.sum_congr rfl (fun t _ => ?_)
    rw [sgn_even, sgn_odd]
    ring
  change laneLoss _ laneSign _ _
    = meanLoss (fun t c => (fun j => ((xr j : ℝ) : EReal)) (lane t c)) ![(a : EReal), (b : EReal)]
  unfold laneLoss meanLoss
  simp only [laneSign_eq, zeroW_eq, halfW_eq, fiftyW_eq, inv100, Fin.sum_univ_two, Matrix.cons_val_zero,
    Matrix.cons_val_one, Matrix.head_cons, Ideal.div_coe (by norm_num : (50 : ℝ) ≠ 0), ← EReal.coe_mul, coe_sum,
    ← EReal.coe_add, ← EReal.coe_sub]
  rw [EReal.coe_eq_coe_iff, hA, hD]
  ring

/-! ### All rows, in the order the kernel visits them -/

/-- The 2^20 rows as (core, sublane, lane, step, chunk) tuples: row `(c * 32 + i) * 16384 + (k * 1024 + a * 128 + b)`. -/
def rowEquiv : Fin 2 × Fin 8 × Fin 128 × Fin 32 × Fin 16 ≃ Fin 1048576 where
  toFun p := ⟨(p.1.val * 32 + p.2.2.2.1.val) * 16384 + (p.2.2.2.2.val * 1024 + p.2.1.val * 128 + p.2.2.1.val), by
    have := p.1.isLt; have := p.2.1.isLt; have := p.2.2.1.isLt; have := p.2.2.2.1.isLt; have := p.2.2.2.2.isLt
    omega⟩
  invFun r := (⟨r.val / 524288, by have := r.isLt; omega⟩, ⟨r.val / 128 % 8, by omega⟩, ⟨r.val % 128, by omega⟩,
    ⟨r.val / 16384 % 32, by omega⟩, ⟨r.val / 1024 % 16, by omega⟩)
  left_inv := by
    rintro ⟨c, a, b, i, k⟩
    have := c.isLt; have := a.isLt; have := b.isLt; have := i.isLt; have := k.isLt
    simp only [Prod.mk.injEq, Fin.ext_iff]
    refine ⟨?_, ?_, ?_, ?_, ?_⟩ <;> omega
  right_inv := by
    intro r
    have := r.isLt
    simp only [Fin.ext_iff]
    omega

/-- The total over all 2^20 rows, summed the way the kernel visits them: core `c`, sublane `a`, lane `b` of the
    accumulator, grid step `i`, chunk `k` of the step's 16384 rows. -/
theorem sum_chunks (f : Fin 1048576 → EReal) :
    (∑ c : Fin 2, ∑ a : Fin 8, ∑ b : Fin 128, ∑ i : Fin 32, ∑ k : Fin 16,
      f ⟨(c.val * 32 + i.val) * 16384 + (k.val * 1024 + a.val * 128 + b.val),
        by have := c.isLt; have := a.isLt; have := b.isLt; have := i.isLt; have := k.isLt; omega⟩)
      = ∑ r : Fin 1048576, f r := by
  rw [← Equiv.sum_comp rowEquiv f]
  simp only [Fintype.sum_prod_type]
  rfl

end Cert.LossAlgebra

end
-- ==== Proof.Rows.lean ====
/-
  The two argument arrays read row by row, and the value both programs end at: the loss of row `r` from the row's
  50 × 2 entries of `true` and its first two entries of `pred`, the total over the 2^20 rows, and the mean.
-/
import proofs.«420667_j27891517620670_4_alg».proof.Proof.LossAlgebra
import Idealize.ShloMosaic.Lib.ValueIdx

noncomputable section

namespace Cert.Rows

open Idealize.ShloMosaic Idealize.ShloMosaic.ValueIdx Cert.LossAlgebra

/-- `pred` : f32[1048576, 4] and `true` : f32[1048576, 50, 2] at the extended reals. -/
abbrev PredArr : Type := (⟨2, ![1048576, 4]⟩ : Shape).Idx → EReal
abbrev TrueArr : Type := (⟨3, ![1048576, 50, 2]⟩ : Shape).Idx → EReal

/-- The row count 2^20 as the float word both programs divide by. -/
abbrev cntW : EReal := Ideal.ofBits .f32 0x49800000#32

/-- Row `r` of `true`, by step and channel. -/
def stepsOf (T : TrueArr) (r : Fin 1048576) : Fin 50 → Fin 2 → EReal := fun t c => T (ix3 r t c)

/-- Row `r` of `pred`, its first two columns (the predicted means). -/
def predOf (P : PredArr) (r : Fin 1048576) : Fin 2 → EReal :=
  fun c => P (ix2 r ⟨c.val, by have := c.isLt; omega⟩)

/-- The loss of row `r`. -/
def rowLoss (P : PredArr) (T : TrueArr) (r : Fin 1048576) : EReal := meanLoss (stepsOf T r) (predOf P r)

/-- The total loss over all rows. -/
def total (P : PredArr) (T : TrueArr) : EReal := ∑ r : Fin 1048576, rowLoss P T r

/-- The mean loss, as the rank-0 array both programs return: the total summed from zero, divided by the row count. -/
def result (P : PredArr) (T : TrueArr) : (⟨0, ![]⟩ : Shape).Idx → EReal :=
  fun _ => Ideal.div (zeroW + total P T) cntW

end Cert.Rows

end
-- ==== Proof.KernelBlocks.lean ====
/-
  The three input blocks of a grid point, read back to the argument arrays. Point `t` stages rows
  `16384 t … 16384 t + 16383`: of `pred` all four columns; of `true`, which the host has re-laid as [2^20, 100]
  (lane `j` of a row is step `j / 2`, channel `j % 2`), all 100 lanes; and the one row of signs, +1 at even lanes
  and -1 at odd ones.
-/
import proofs.«420667_j27891517620670_4_alg».proof.Proof.KernelAcc
import proofs.«420667_j27891517620670_4_alg».proof.Proof.Rows
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Acc Cert.LossAlgebra

/-- Row `q` of point `t`'s block, as a row of the whole arrays. -/
def stepRow (t : Fin cfg0.N) (q : Fin 16384) : Fin 1048576 :=
  ⟨t.val * 16384 + q.val, by have := t.isLt; have hN : cfg0.N = 64 := N_0; have := q.isLt; omega⟩

/-- The index maps of the three input windows, decided over the 64 points: `pred` and `true` advance one block of
    rows per point, the signs never move. -/
theorem idx_pred : ∀ t : Fin cfg0.N, win0_0.index t 0 = t.val ∧ win0_0.index t 1 = 0 :=
  (by decide +kernel : ∀ t : Fin grid0.N, win0_0.index t 0 = t.val ∧ win0_0.index t 1 = 0)
theorem idx_true : ∀ t : Fin cfg0.N, win0_1.index t 0 = t.val ∧ win0_1.index t 1 = 0 :=
  (by decide +kernel : ∀ t : Fin grid0.N, win0_1.index t 0 = t.val ∧ win0_1.index t 1 = 0)
theorem idx_sign : ∀ t : Fin cfg0.N, win0_2.index t 0 = 0 ∧ win0_2.index t 1 = 0 :=
  (by decide +kernel : ∀ t : Fin grid0.N, win0_2.index t 0 = 0 ∧ win0_2.index t 1 = 0)

variable {F : FTy → Type} [FloatOps F] [Named F]
variable (m : (ℓ : Loc nD τ sig) → Buf (Elt F) ℓ)

/-- The `pred` block reads `pred` at its rows. -/
theorem predBlk_apply (c : Dev nD) (t : Fin cfg0.N) (q : Fin 16384) (cc : Fin 4) :
    predBlk m c t (ix2 q cc) = m ((c : Thread nD τ).loc main_arg0) (ix2 (stepRow t q) cc) := by
  show iblk m c 0 t (ix2 q cc) = _
  unfold iblk
  rw [View.read_apply]
  show V m c main_arg0 _ = _
  rw [V_main_arg0]
  refine congrArg _ (funext fun a => Fin.ext ?_)
  match a with
  | ⟨0, _⟩ => show win0_0.index t 0 * 16384 + 1 * q.val = t.val * 16384 + q.val; rw [(idx_pred t).1]; omega
  | ⟨1, _⟩ => show win0_0.index t 1 * 4 + 1 * cc.val = cc.val; rw [(idx_pred t).2]; omega

/-- What the host's reshape leaves in the array the `true` window stages: `true` re-laid as [2^20, 100]. -/
theorem V_true (c : Dev nD) :
    (V m c main_v0 : S1048576x100.Idx → Elt F .f32)
      = shapeCast S1048576x100 (m ((c : Thread nD τ).loc main_arg1)) shapeCasts_S1048576x50x2_S1048576x100 := by
  show StableHlo.after hostOps0 (fun b => m (c, b)) (Proc.devRef .tc main_v0) = _
  after_results
  rfl

/-- The `true` block reads `true` at its rows: lane `j` is step `j / 2`, channel `j % 2`. -/
theorem trueBlk_apply (c : Dev nD) (t : Fin cfg0.N) (q : Fin 16384) (s : Fin 50) (ch : Fin 2) :
    trueBlk m c t (ix2 q (lane s ch)) = m ((c : Thread nD τ).loc main_arg1) (ix3 (stepRow t q) s ch) := by
  show iblk m c 1 t (ix2 q (lane s ch)) = _
  unfold iblk
  rw [View.read_apply]
  show V m c main_v0 _ = _
  rw [V_true]
  refine shapeCast_apply _ _ _ _ ?_
  refine (Shape.rowMajor_val_three (d := ![1048576, 50, 2]) (ix3 (stepRow t q) s ch)).trans ?_
  refine Eq.trans ?_ (Shape.rowMajor_val_two (d := ![1048576, 100]) (((cfg0.win 1).blk t).view.emb (ix2 q (lane s ch)))).symm
  show ((stepRow t q).val * 50 + s.val) * 2 + ch.val = (win0_1.index t 0 * 16384 + 1 * q.val) * 100 + (win0_1.index t 1 * 100 + 1 * (lane s ch).val)
  rw [(idx_true t).1, (idx_true t).2]
  unfold stepRow lane
  dsimp only
  omega

/-- What the host's constant leaves in the array the sign window stages: the literal table, lane by lane. -/
theorem V_sign (c : Dev nD) :
    (V m c main_cst : S1x100.Idx → Elt F .f32) = fun i => FloatOps.ofBits .f32 (lit0 (S1x100.rowMajor i)) := by
  show StableHlo.after hostOps0 (fun b => m (c, b)) (Proc.devRef .tc main_cst) = _
  after_results
  rfl

/-- The literal table alternates the words of +1.0 and -1.0. -/
theorem lit0_alt : ∀ j : Fin 100, lit0 j = if j.val % 2 = 0 then 0x3F800000#32 else 0xBF800000#32 := by
  decide +kernel

end Cert.KernelIdeal.Blocks

end
-- ==== Proof.KernelPayloads.lean ====
/-
  The kernel body's arithmetic read at the extended reals, index by index. Chunk `k`, sublane `a`, lane `b` of a
  step's per-row losses is the loss of the step's row `1024 k + 128 a + b`, formed from that row's 100 lanes, the
  sign lanes and the row's two predicted means; the 16 chunk additions add the 16 chunk entries at each (a, b) to the
  accumulator's entry; the final reduction sums the accumulator's 8 × 128 entries.
-/
import proofs.«420667_j27891517620670_4_alg».proof.Proof.KernelPieces
import proofs.«420667_j27891517620670_4_alg».proof.Proof.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.KernelIdeal.Payloads

open Cert.KernelIdeal Cert.KernelIdeal.Gen Cert.KernelIdeal.Pieces Cert.LossAlgebra

/-- Row `1024 k + 128 a + b` of a step's 16384 rows: where chunk `k`, sublane `a`, lane `b` comes from. -/
def chunkRow (k : Fin 16) (a : Fin 8) (b : Fin 128) : Fin 16384 :=
  ⟨k.val * 1024 + a.val * 128 + b.val, by have := k.isLt; have := a.isLt; have := b.isLt; omega⟩

/-- A lane reduction of a [16384, 100] vector at row `q` is the sum of the row's 100 lanes. -/
theorem rowSum_apply (v : FVec Ideal S16384x100 .f32) (h : S16384x100.Reduces [1] S16384)
    (hacc : (0x00000000#32 : BitVec 32) = 0x00000000#32) (q : Fin 16384) :
    multiReduction .add [1] S16384 v 0x00000000#32 h (.inl rfl) hacc (ix1 q) = ∑ j : Fin 100, v (ix2 q j) :=
  (Ideal.multiReduction_add_single v _ h (.inl rfl) hacc (ix1 q)).trans
    (Finset.sum_congr rfl fun j _ => congrArg v (funext fun a => Fin.ext (by match a with | ⟨0, _⟩ => rfl | ⟨1, _⟩ => rfl)))

/-- The per-row vector re-laid as 16 chunks of [8, 128]: entry (k, a, b) is row `1024 k + 128 a + b`. -/
theorem rows_to_chunks_apply (v : FVec Ideal S16384 .f32) (h : S16384.ShapeCasts S16x8x128) (k : Fin 16) (a : Fin 8) (b : Fin 128) :
    shapeCast S16x8x128 v h (ix3 k a b) = v (ix1 (chunkRow k a b)) :=
  shapeCast_apply v h _ _ (by
    rw [Shape.rowMajor_val_one, Shape.rowMajor_val_three]
    show (chunkRow k a b).val = (k.val * 8 + a.val) * 128 + b.val
    unfold chunkRow; dsimp only; omega)

/-- A [16384, 1] column read as a vector of 16384. -/
theorem column_apply (v : FVec Ideal S16384x1 .f32) (h : S16384x1.ShapeCasts S16384) (q : Fin 16384) :
    shapeCast S16384 v h (ix1 q) = v (ix2 q (0 : Fin 1)) :=
  shapeCast_apply v h _ _ (by
    rw [Shape.rowMajor_val_one, Shape.rowMajor_val_two]
    show q.val * 1 + 0 = q.val
    omega)

/-- Column `cc` of the `pred` block, sliced out as a [16384, 1] column. -/
theorem predCol_apply (x0 : FVec Ideal S16384x4 .f32) (off : Fin 2 → Nat) (cc : Fin 4) (hoff : off = ![0, cc.val])
    (h : S16384x4.Slices off S16384x1) (q : Fin 16384) :
    extractStridedSlice S16384x1 off x0 h (ix2 q (0 : Fin 1)) = x0 (ix2 q cc) := by
  subst hoff
  exact extractStridedSlice_apply _ x0 h _ _ (fun ax => match ax with
    | ⟨0, _⟩ => by show q.val = 0 + q.val; omega
    | ⟨1, _⟩ => by show cc.val = cc.val + 0; omega)

/-- The named constant is 1/100. -/
theorem inv100_eq : Named.named (F := Ideal) κ "inv_100" (φ := .f32) 0x3C23D70A#32 = inv100 :=
  IdealRules.named_const.ideal_named_scalar _ _ _ _ rfl

/-- Entry (k, a, b) of the step's losses is the loss of row `1024 k + 128 a + b` of the step's blocks. -/
theorem rowLosses_apply (x1 : FVec Ideal S16384x100 .f32) (x2 : FVec Ideal S1x100 .f32) (x0 : FVec Ideal S16384x4 .f32)
    (k : Fin 16) (a : Fin 8) (b : Fin 128) :
    k0_pay4 (F := Ideal) x1 x2 x0 (ix3 k a b)
      = laneLoss (fun j => x1 (ix2 (chunkRow k a b) j)) (fun j => x2 (ix2 (0 : Fin 1) j))
          (x0 (ix2 (chunkRow k a b) (0 : Fin 4))) (x0 (ix2 (chunkRow k a b) (1 : Fin 4))) := by
  unfold k0_pay4
  dsimp only
  refine (rows_to_chunks_apply _ _ k a b).trans ?_
  simp only [mulf_apply, addf_apply, subf_apply, broadcast_apply, shapeCast_self, column_apply,
    predCol_apply x0 ![0, 0] (0 : Fin 4) rfl, predCol_apply x0 ![0, 1] (1 : Fin 4) rfl, inv100_eq]
  rw [rowSum_apply x1 reduces_S16384x100_S16384 rfl (chunkRow k a b),
    rowSum_apply (mulf x1 (broadcastTo S16384x100 x2 broadcasts_S1x100_S16384x100)) reduces_S16384x100_S16384 rfl (chunkRow k a b)]
  simp only [mulf_apply, broadcastTo_1b_ab_apply]
  rfl

/-- Chunk `k` of the step's losses, sliced out and re-laid as [8, 128]. -/
theorem chunk_apply (v : FVec Ideal S16x8x128 .f32) (off : Fin 3 → Nat) (k : Fin 16) (hoff : off = ![k.val, 0, 0])
    (h : S16x8x128.Slices off S1x8x128) (h' : S1x8x128.ShapeCasts S8x128) (a : Fin 8) (b : Fin 128) :
    shapeCast S8x128 (extractStridedSlice S1x8x128 off v h) h' (ix2 a b) = v (ix3 k a b) := by
  subst hoff
  refine (shapeCast_1ab_ab_apply _ h' a b).trans ?_
  exact extractStridedSlice_apply _ v h _ _ (fun ax => match ax with
    | ⟨0, _⟩ => by show k.val = k.val + 0; omega
    | ⟨1, _⟩ => by show a.val = 0 + a.val; omega
    | ⟨2, _⟩ => by show b.val = 0 + b.val; omega)

/-- The 16 chunk additions: at (a, b), the accumulator's entry plus the 16 chunk entries. -/
theorem addChunks_apply (x0 : FVec Ideal S16384x4 .f32) (x1 : FVec Ideal S16384x100 .f32) (x2 : FVec Ideal S1x100 .f32)
    (acc : FVec Ideal S8x128 .f32) (a : Fin 8) (b : Fin 128) :
    addChunks (F := Ideal) x0 x1 x2 acc (ix2 a b)
      = acc (ix2 a b) + ∑ k : Fin 16, k0_pay4 (F := Ideal) x1 x2 x0 (ix3 k a b) := by
  unfold addChunks k0_pay5 k0_pay6 k0_pay7 k0_pay8 k0_pay9 k0_pay10 k0_pay11 k0_pay12 k0_pay13 k0_pay14 k0_pay15 k0_pay16 k0_pay17 k0_pay18 k0_pay19 k0_pay20
  dsimp only
  simp only [shapeCast_self, addf_apply, chunk_apply _ ![0, 0, 0] (0 : Fin 16) rfl, chunk_apply _ ![1, 0, 0] (1 : Fin 16) rfl, chunk_apply _ ![2, 0, 0] (2 : Fin 16) rfl, chunk_apply _ ![3, 0, 0] (3 : Fin 16) rfl, chunk_apply _ ![4, 0, 0] (4 : Fin 16) rfl, chunk_apply _ ![5, 0, 0] (5 : Fin 16) rfl, chunk_apply _ ![6, 0, 0] (6 : Fin 16) rfl, chunk_apply _ ![7, 0, 0] (7 : Fin 16) rfl, chunk_apply _ ![8, 0, 0] (8 : Fin 16) rfl, chunk_apply _ ![9, 0, 0] (9 : Fin 16) rfl, chunk_apply _ ![10, 0, 0] (10 : Fin 16) rfl, chunk_apply _ ![11, 0, 0] (11 : Fin 16) rfl, chunk_apply _ ![12, 0, 0] (12 : Fin 16) rfl, chunk_apply _ ![13, 0, 0] (13 : Fin 16) rfl, chunk_apply _ ![14, 0, 0] (14 : Fin 16) rfl, chunk_apply _ ![15, 0, 0] (15 : Fin 16) rfl]
  simp only [Fin.sum_univ_succ, Fin.sum_univ_zero, add_zero, add_assoc]
  rfl

/-- The zero block. -/
theorem zeroBlock_apply (j : S8x128.Idx) : k0_pay2 (F := Ideal) j = 0 := by
  unfold k0_pay2
  rw [shapeCast_self, broadcast_apply]
  exact Ideal.ofBits_zero_f32

/-- A reduction of a [1, 8, 128] vector over its last two axes is the sum of all its entries. -/
theorem total_apply (v : FVec Ideal S1x8x128 .f32) (h : S1x8x128.Reduces [1, 2] S1)
    (hacc : (0x00000000#32 : BitVec 32) = 0x00000000#32) (j : S1.Idx) :
    multiReduction .add [1, 2] S1 v 0x00000000#32 h (.inl rfl) hacc j = ∑ i : S1x8x128.Idx, v i :=
  Ideal.multiReduction_add_total v _ h (fun b => by fin_cases b; rfl) (.inl rfl) hacc j

/-- The output block at a core's last step: every entry (there is one) is the sum of the accumulator's entries. -/
theorem laneSum_apply (acc : FVec Ideal S8x128 .f32) (i : S1x1x1.Idx) :
    k0_pay1 (F := Ideal) acc i = ∑ a : Fin 8, ∑ b : Fin 128, acc (ix2 a b) := by
  unfold k0_pay1
  dsimp only
  rw [broadcast_apply]
  unfold extractAt shapeCast
  refine (total_apply _ _ rfl _).trans ?_
  exact (Equiv.sum_comp (Shape.reshapeEquiv shapeCasts_S8x128_S1x8x128) acc).trans (sum_idx2 acc)

end Cert.KernelIdeal.Payloads

end
-- ==== Proof.KernelTotals.lean ====
/-
  The accumulator in closed form, and each core's total. At the extended reals the accumulator's entry (a, b) after
  point `n` is the sum, over the core's steps so far, of the step's 16 chunk entries at (a, b); each chunk entry is
  the loss of one row of the arguments (the law of the two forms of the row loss, which needs real entries); so at
  a core's last step the output block holds the sum of the losses of the core's 2^19 rows.
-/
import proofs.«420667_j27891517620670_4_alg».proof.Proof.KernelAcc
import proofs.«420667_j27891517620670_4_alg».proof.Proof.KernelBlocks
import proofs.«420667_j27891517620670_4_alg».proof.Proof.KernelPayloads
import proofs.«420667_j27891517620670_4_alg».proof.Proof.Rows

set_option maxRecDepth 16384

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.Pieces Cert.KernelIdeal.Acc Cert.KernelIdeal.Blocks
  Cert.KernelIdeal.Payloads Cert.LossAlgebra Cert.Rows

variable (m : (ℓ : Loc nD τ sig) → Buf (Elt Ideal) ℓ)

/-- The two argument arrays on core `c`. -/
abbrev predArr (c : Dev nD) : PredArr := m ((c : Thread nD τ).loc main_arg0)
abbrev trueArr (c : Dev nD) : TrueArr := m ((c : Thread nD τ).loc main_arg1)

/-- The sign block is the sign lane, at every point. -/
theorem signBlk_apply (c : Dev nD) (t : Fin cfg0.N) (j : Fin 100) :
    signBlk m c t (ix2 (0 : Fin 1) j) = laneSign j := by
  show iblk m c 2 t (ix2 (0 : Fin 1) j) = _
  unfold iblk
  rw [View.read_apply]
  show V m c main_cst _ = _
  rw [V_sign]
  have hi : S1x100.rowMajor (((cfg0.win 2).blk t).view.emb (ix2 (0 : Fin 1) j)) = j := Fin.ext (by
    refine (Shape.rowMajor_val_two (d := ![1, 100]) _).trans ?_
    show (win0_2.index t 0 * 1 + 1 * 0) * 100 + (win0_2.index t 1 * 100 + 1 * j.val) = j.val
    rw [(idx_sign t).1, (idx_sign t).2]; omega)
  show FloatOps.ofBits .f32 (lit0 (S1x100.rowMajor (((cfg0.win 2).blk t).view.emb (ix2 (0 : Fin 1) j)))) = _
  rw [hi, lit0_alt]
  unfold laneSign
  split_ifs <;> rfl

/-- Chunk entry (k, a, b) of point `t` is the loss of row `16384 t + 1024 k + 128 a + b` of the arguments, when the
    arguments' entries are real. -/
theorem stepLoss_eq (c : Dev nD) (t : Fin cfg0.N) (k : Fin 16) (a : Fin 8) (b : Fin 128)
    (hP : ∀ i, ∃ r : ℝ, predArr m c i = (r : EReal)) (hT : ∀ i, ∃ r : ℝ, trueArr m c i = (r : EReal)) :
    k0_pay4 (F := Ideal) (trueBlk m c t) (signBlk m c t) (predBlk m c t) (ix3 k a b)
      = rowLoss (predArr m c) (trueArr m c) (stepRow t (chunkRow k a b)) := by
  rw [rowLosses_apply]
  have hs : (fun j => signBlk m c t (ix2 (0 : Fin 1) j)) = laneSign := funext (signBlk_apply m c t)
  rw [hs, laneLoss_eq_meanLoss _ _ _ (fun j => by
      obtain ⟨⟨s, ch⟩, rfl⟩ := laneEquiv.surjective j
      show ∃ r : ℝ, trueBlk m c t (ix2 (chunkRow k a b) (lane s ch)) = (r : EReal)
      rw [trueBlk_apply]; exact hT _)
    (by rw [predBlk_apply]; exact hP _) (by rw [predBlk_apply]; exact hP _)]
  unfold rowLoss
  refine congrArg₂ meanLoss (funext fun s => funext fun ch => ?_) (funext fun ch => ?_)
  · exact trueBlk_apply m c t (chunkRow k a b) s ch
  · unfold predOf
    match ch with
    | ⟨0, _⟩ => exact predBlk_apply m c t (chunkRow k a b) (0 : Fin 4)
    | ⟨1, _⟩ => exact predBlk_apply m c t (chunkRow k a b) (1 : Fin 4)

/-- The 16 chunk entries of point `i` at (a, b), summed; zero past the grid's 64 points. -/
def stepSum (c : Dev nD) (i : ℕ) (a : Fin 8) (b : Fin 128) : EReal :=
  if h : i < cfg0.N then
    ∑ k : Fin 16, k0_pay4 (F := Ideal) (trueBlk m c ⟨i, h⟩) (signBlk m c ⟨i, h⟩) (predBlk m c ⟨i, h⟩) (ix3 k a b)
  else 0

/-- The accumulator after point `n`, at (a, b): the step sums of the core's steps so far. -/
theorem acc_closed (c : Dev nD) (a : Fin 8) (b : Fin 128) : ∀ (n : ℕ) (h : n < cfg0.N),
    accAfter m c n h (ix2 a b) = ∑ i ∈ Finset.Ico (n - n % 32) (n + 1), stepSum m c i a b
  | 0, h => by
    rw [accAfter_first m c 0 h rfl, addChunks_apply, zeroBlock_apply, zero_add]
    show _ = ∑ i ∈ Finset.Ico 0 1, stepSum m c i a b
    rw [Nat.Ico_succ_singleton, Finset.sum_singleton]
    unfold stepSum; rw [dif_pos h]
  | n + 1, h => by
    by_cases h0 : (n + 1) % 32 = 0
    · rw [accAfter_first m c (n + 1) h h0, addChunks_apply, zeroBlock_apply, zero_add]
      have e : n + 1 - (n + 1) % 32 = n + 1 := by omega
      rw [e, Nat.Ico_succ_singleton, Finset.sum_singleton]
      unfold stepSum; rw [dif_pos h]
    · rw [accAfter_next m c n h h0, addChunks_apply, acc_closed c a b n (Nat.lt_of_succ_lt h)]
      have e : n + 1 - (n + 1) % 32 = n - n % 32 := by omega
      rw [e, Finset.sum_Ico_succ_top (by omega : n - n % 32 ≤ n + 1)]
      refine congrArg (_ + ·) ?_
      unfold stepSum; rw [dif_pos h]

/-- Core `cc`'s total: over the accumulator's entries, the step sums of the core's 32 steps. -/
def coreSum (c : Dev nD) (cc : ℕ) : EReal :=
  ∑ a : Fin 8, ∑ b : Fin 128, ∑ i ∈ Finset.Ico (32 * cc) (32 * cc + 32), stepSum m c i a b

/-- At a core's last step the output block holds the core's total. -/
theorem out_core (c : Dev nD) (n : ℕ) (h : n < cfg0.N) (h1 : n % 32 = 31) (y : S1x1x1.Idx) :
    (outsAt0 m c n h).1 y = coreSum m c (n / 32) := by
  cases n with
  | zero => exact absurd h1 (by decide)
  | succ n =>
    rw [out_last m c n h h1, laneSum_apply]
    unfold coreSum
    refine Finset.sum_congr rfl fun a _ => Finset.sum_congr rfl fun b _ => ?_
    rw [acc_closed m c a b (n + 1) h]
    have e1 : n + 1 - (n + 1) % 32 = 32 * ((n + 1) / 32) := by omega
    have e2 : n + 1 + 1 = 32 * ((n + 1) / 32) + 32 := by omega
    rw [e1, e2]

end Cert.KernelIdeal.Totals

end
-- ==== Proof.KernelResult.lean ====
/-
  The kernel's result. The output window's block index is the core number; it is written back at each core's last
  step, so the [2, 1, 1] output array ends holding the two cores' totals. The host then adds the two entries and
  divides by the row count. The two totals together run over all 2^20 rows (each core's 32 steps × 16 chunks ×
  8 × 128 accumulator entries), so the result is the mean row loss.
-/
import proofs.«420667_j27891517620670_4_alg».proof.Proof.KernelTotals
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Acc Cert.KernelIdeal.Blocks Cert.KernelIdeal.Payloads
  Cert.KernelIdeal.Totals Cert.LossAlgebra Cert.Rows

variable (m : (ℓ : Loc nD τ sig) → Buf (Elt Ideal) ℓ) (ρ : Dev nD → PrngReg)

/-- The output window's index map, decided over the 64 points: block (core, 0, 0). -/
theorem idx_out : ∀ t : Fin cfg0.N, win0_3.index t (0 : Fin 3) = t.val / 32 ∧ win0_3.index t (1 : Fin 3) = 0
    ∧ win0_3.index t (2 : Fin 3) = 0 :=
  (by decide +kernel : ∀ t : Fin grid0.N, win0_3.index t (0 : Fin 3) = t.val / 32 ∧ win0_3.index t (1 : Fin 3) = 0
    ∧ win0_3.index t (2 : Fin 3) = 0)

/-- The output array after the run: entry (cc, 0, 0) is core `cc`'s total. -/
def coreArr (c : Dev nD) : FVec Ideal S2x1x1 .f32 := fun i => coreSum m c (i 0).val

/-- What a core's last step writes back is its block of that array. -/
theorem flushed_eq (c : Dev nD) (t : Fin cfg0.N) (hf : (cfg0.win 3).flush t = true) :
    (dats m 0 c).flushed 3 t = ((cfg0.win 3).blk t).view.read (Elt Ideal) (coreArr m c) := by
  have h31 : t.val % 32 = 31 := (flush0_3 t).mp hf
  show (cfg0.win 3).cut (grid0.coords t) ((dats m 0 c).after 3 t) = _
  rw [after0_3]
  funext y
  rw [View.read_apply]
  show (outsAt0 m c t.val t.isLt).1 y = coreSum m c (win0_3.index t (0 : Fin 3) * 1 + 1 * (y 0).val)
  have hy : (y 0).val < 1 := (y 0).isLt
  rw [out_core m c t.val t.isLt h31 y, (idx_out t).1]
  congr 1
  omega

/-- An index of the output array is in point `t`'s block iff each coordinate is in the block's range. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v1).slice (win0_3.rect t)).set ↔ _
  rw [View.set_slice_whole, Rect.mem_set_unit]
  exact Iff.rfl

/-- Every entry of the output array is written back: entry (cc, 0, 0) at point `32 cc + 31`. -/
theorem cover (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hN : cfg0.N = 64 := N_0
  have hlt : 32 * (i 0).val + 31 < cfg0.N := by omega
  refine ⟨⟨32 * (i 0).val + 31, hlt⟩, (flush0_3 _).mpr (by show (32 * (i 0).val + 31) % 32 = 31; omega), ?_⟩
  rw [mem_blk]
  obtain ⟨e0, e1, e2⟩ := idx_out ⟨32 * (i 0).val + 31, hlt⟩
  have e0' : win0_3.index ⟨32 * (i 0).val + 31, hlt⟩ (0 : Fin 3) = (32 * (i 0).val + 31) / 32 := e0
  intro a
  match a with
  | ⟨0, _⟩ =>
    show win0_3.index ⟨32 * (i 0).val + 31, hlt⟩ (0 : Fin 3) * 1 ≤ (i 0).val
      ∧ (i 0).val < win0_3.index ⟨32 * (i 0).val + 31, hlt⟩ (0 : Fin 3) * 1 + 1
    omega
  | ⟨1, _⟩ =>
    show win0_3.index ⟨32 * (i 0).val + 31, hlt⟩ (1 : Fin 3) * 1 ≤ (i 1).val
      ∧ (i 1).val < win0_3.index ⟨32 * (i 0).val + 31, hlt⟩ (1 : Fin 3) * 1 + 1
    omega
  | ⟨2, _⟩ =>
    show win0_3.index ⟨32 * (i 0).val + 31, hlt⟩ (2 : Fin 3) * 1 ≤ (i 2).val
      ∧ (i 2).val < win0_3.index ⟨32 * (i 0).val + 31, hlt⟩ (2 : Fin 3) * 1 + 1
    omega

/-- So the output array ends holding the two cores' totals. -/
theorem final (c : Dev nD) : (dats m 0 c).arrAt 3 cfg0.N = coreArr m c :=
  (dats m 0 c).arrAt_eq_of_cover 3 (coreArr m c) (flushed_eq m c) cover

/-- A [1, 1, 1] block read as a scalar. -/
theorem scalar_apply (x : FVec Ideal S1x1x1 .f32) (h : S1x1x1.ShapeCasts S_) (i : S_.Idx) :
    shapeCast S_ x h i = x (ix3 (0 : Fin 1) (0 : Fin 1) (0 : Fin 1)) :=
  shapeCast_apply x h i _ (by
    have h0 : (S_.rowMajor i).val < 1 := by
      have := (S_.rowMajor i).isLt
      simpa [Shape.numel] using this
    rw [Shape.rowMajor_val_three]
    show (0 * 1 + 0) * 1 + 0 = (S_.rowMajor i).val
    omega)

/-- Entry (cc, 0, 0) of the output array, sliced out as a [1, 1, 1] block. -/
theorem coreSlice_apply (x : FVec Ideal S2x1x1 .f32) (off : Fin 3 → Nat) (cc : Fin 2) (hoff : off = ![cc.val, 0, 0])
    (h : S2x1x1.Slices off S1x1x1) :
    extractStridedSlice S1x1x1 off x h (ix3 (0 : Fin 1) (0 : Fin 1) (0 : Fin 1)) = x (ix3 cc (0 : Fin 1) (0 : Fin 1)) := by
  subst hoff
  exact extractStridedSlice_apply _ x h _ _ (fun ax => match ax with
    | ⟨0, _⟩ => by show cc.val = cc.val + 0; omega
    | ⟨1, _⟩ => by show 0 = 0 + 0; omega
    | ⟨2, _⟩ => by show 0 = 0 + 0; omega)

/-- The host's lines after the region: the two entries added, divided by the row count. -/
theorem tail_value (c : Dev nD) :
    Pipeline.afterTail₀ cfgs (dats m) 0 (V0 m) [hostOps1] c main_v7
      = fun _ => Ideal.div (coreSum m c 0 + coreSum m c 1) cntW := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v1) = coreArr m c :=
    (Pipeline.withArrays_arr spec0 launch0.win.arr_inj c _ _ 3).trans (final m c)
  rw [hw]
  funext i
  show Ideal.div (shapeCast S_ (extractStridedSlice S1x1x1 ![0, 0, 0] (coreArr m c) slices_S2x1x1_S1x1x1_0_0_0) shapeCasts_S1x1x1_S_ i
      + shapeCast S_ (extractStridedSlice S1x1x1 ![1, 0, 0] (coreArr m c) slices_S2x1x1_S1x1x1_1_0_0) shapeCasts_S1x1x1_S_ i)
      (Ideal.ofBits .f32 0x49800000#32) = _
  rw [scalar_apply, scalar_apply, coreSlice_apply _ ![0, 0, 0] (0 : Fin 2) rfl, coreSlice_apply _ ![1, 0, 0] (1 : Fin 2) rfl]
  rfl

/-- Core `cc`'s total as a sum of row losses, in the order (sublane, lane, step, chunk). -/
theorem coreSum_eq (c : Dev nD) (cc : Fin 2)
    (hP : ∀ i, ∃ r : ℝ, predArr m c i = (r : EReal)) (hT : ∀ i, ∃ r : ℝ, trueArr m c i = (r : EReal)) :
    coreSum m c cc.val = ∑ a : Fin 8, ∑ b : Fin 128, ∑ i : Fin 32, ∑ k : Fin 16,
      rowLoss (predArr m c) (trueArr m c) ⟨(cc.val * 32 + i.val) * 16384 + (k.val * 1024 + a.val * 128 + b.val),
        by have := cc.isLt; have := a.isLt; have := b.isLt; have := i.isLt; have := k.isLt; omega⟩ := by
  have hcc := cc.isLt
  have hN : cfg0.N = 64 := N_0
  unfold coreSum
  refine Finset.sum_congr rfl fun a _ => Finset.sum_congr rfl fun b _ => ?_
  rw [Finset.sum_Ico_eq_sum_range, show 32 * cc.val + 32 - 32 * cc.val = 32 by omega, Finset.sum_range]
  refine Finset.sum_congr rfl fun i _ => ?_
  have hi := i.isLt
  have hlt : 32 * cc.val + i.val < cfg0.N := by omega
  unfold stepSum
  rw [dif_pos hlt]
  refine Finset.sum_congr rfl fun k _ => ?_
  rw [stepLoss_eq m c ⟨32 * cc.val + i.val, hlt⟩ k a b hP hT]
  refine congrArg _ (Fin.ext ?_)
  unfold stepRow chunkRow
  dsimp only
  omega

/-- The two cores' totals together are the total over all rows. -/
theorem cores_total (c : Dev nD)
    (hP : ∀ i, ∃ r : ℝ, predArr m c i = (r : EReal)) (hT : ∀ i, ∃ r : ℝ, trueArr m c i = (r : EReal)) :
    coreSum m c 0 + coreSum m c 1 = total (predArr m c) (trueArr m c) := by
  unfold total
  rw [← sum_chunks (rowLoss (predArr m c) (trueArr m c)), Fin.sum_univ_two]
  exact congrArg₂ (· + ·) (coreSum_eq m c (0 : Fin 2) hP hT) (coreSum_eq m c (1 : Fin 2) hP hT)

/-- The run, read: where both arguments' entries are real, the result buffer ends at the mean row loss and the
    arguments end unchanged. -/
theorem run (hP : ∀ c i, ∃ r : ℝ, predArr m c i = (r : EReal)) (hT : ∀ c i, ∃ r : ℝ, trueArr m c i = (r : EReal)) :
    θ_run defs (onTc (τ := τ) (main (F := Ideal))) ⟨m, fun _ => 0, ρ⟩ fun r => ∀ c : Dev nD,
      r.2.mem ((c : Thread nD τ).loc main_v7) = result (predArr m c) (trueArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v7 (Pipeline.mem_restRefs_of main_v7 (by decide) (by decide))).trans ((tail_value m c).trans (by
        unfold result
        rw [cores_total m c (hP c) (hT c), zeroW_eq]
        funext _
        rw [show ((0 : ℝ) : EReal) = 0 from rfl, zero_add])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference, read at the extended reals: its result is the mean over the rows of each row's loss.
-/
import proofs.«420667_j27891517620670_4_alg».proof.Defs
import proofs.«420667_j27891517620670_4_alg».proof.Proof.Gen.ReferenceIdeal.Read
import proofs.«420667_j27891517620670_4_alg».proof.Proof.Rows

noncomputable section

namespace Cert.RefValue

open Idealize.ShloMosaic Idealize.ShloMosaic.ValueIdx Cert.LossAlgebra Cert.Rows
open Cert.ReferenceIdeal.Read

/-- A rank-1 index set is its one coordinate's range. -/
def idxEquiv1 {n : Nat} : (⟨1, ![n]⟩ : Shape).Idx ≃ Fin n where
  toFun j := j 0
  invFun r := ix1 r
  left_inv j := (eq_ix1 j).symm
  right_inv _ := rfl

/-- A sum over a rank-1 index set is the sum over its coordinate. -/
theorem sum_idx1 {n : Nat} (f : (⟨1, ![n]⟩ : Shape).Idx → EReal) : ∑ j, f j = ∑ r : Fin n, f (ix1 r) := by
  rw [← Equiv.sum_comp (idxEquiv1 (n := n)).symm f]
  rfl

/-- Entry (r, c) of the slice of `pred` is entry (r, c) of `pred`. -/
theorem idx_pred (r : Fin 1048576) (c : Fin 2) :
    idx_main_v0 (idx_main_v6 (ix1 r) c) = ix2 r ⟨c.val, by have := c.isLt; omega⟩ := by
  funext a
  exact Fin.ext (by match a with | ⟨0, _⟩ => rfl | ⟨1, _⟩ => rfl)

/-- Term t of the sum over axis 1 at (r, c) is entry (r, t, c) of `true`. -/
theorem idx_true (r : Fin 1048576) (c : Fin 2) (t : Fin 50) :
    idx_main_v1 (idx_main_v6 (ix1 r) c) t = ix3 r t c := by
  funext a
  exact Fin.ext (by match a with | ⟨0, _⟩ => rfl | ⟨1, _⟩ => rfl | ⟨2, _⟩ => rfl)

/-- The reference's per-row stage at row r is the loss of row r: half the sum over the two channels of the squared
    difference between the channel's mean over the 50 steps and the predicted mean. -/
theorem row_value (P : PredArr) (T : TrueArr) (r : Fin 1048576) :
    val_main_v8 (F := Ideal) P T (ix1 r) = rowLoss P T r := by
  rw [val_main_v8_apply, Ideal.mulf_def, val_main_v7_apply, val_main_cst_2_apply, val_main_v6_apply, val_main_cst_1_apply]
  simp only [val_main_v5_apply, val_main_v4_apply, val_main_v3_apply, val_main_v2_apply, val_main_cst_0_apply,
    val_main_v1_apply, val_main_cst_apply, val_main_v0_apply, Ideal.mulf_def, Ideal.subf_def, Ideal.hostDivf_def,
    Ideal.ofBits_def, idx_pred, idx_true]
  rfl

/-- The reference's last stage, as a function of the two argument arrays, is the mean loss: the slice of `pred`
    reads its first two columns, the sum over axis 1 of `true` a row's 50 steps per channel, and the closing sum
    runs over all 2^20 rows. -/
theorem ref_value (P : PredArr) (T : TrueArr) :
    Cert.ReferenceIdeal.Read.val_main_v10 (F := Ideal) P T = result P T := by
  funext i
  unfold result
  rw [val_main_v10_apply, Ideal.hostDivf_def, val_main_v9_apply, val_main_cst_4_apply, val_main_cst_3_apply]
  simp only [Ideal.ofBits_def]
  have hsum : ∑ j : Cert.ReferenceIdeal.S1048576.Idx, val_main_v8 (F := Ideal) P T j = total P T := by
    unfold total
    rw [sum_idx1 (n := 1048576) (fun j => val_main_v8 (F := Ideal) P T j)]
    exact Finset.sum_congr rfl (fun r _ => row_value P T r)
  rw [hsum]

end Cert.RefValue

end
-- ==== Proof.FiniteInputs.lean ====
/-
  The precondition read: where it holds, every entry of both argument arrays is a real number.
-/
import proofs.«420667_j27891517620670_4_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic

/-- The result shape has rank 0, so it has a single index. -/
instance : Subsingleton Cert.Pre_finite_inputs.S_.Idx := ⟨fun a b => funext fun d => d.elim0⟩

/-- A Boolean as a one-bit word is 1 exactly when it is true. -/
theorem ofBool_eq_one (b : Bool) : BitVec.ofBool b = 1#1 ↔ b = true := by cases b <;> decide

/-- The word 0x7F800000 denotes +∞. -/
theorem top_word : Ideal.ofBits .f32 0x7F800000#32 = (⊤ : EReal) := by
  simp [Ideal.ofBits, Ideal.ieee]

/-- An extended real whose absolute value max x (-x) lies strictly below +∞ is neither +∞ nor -∞. -/
theorem real_of_abs_lt (x : EReal) (h : Ideal.cmp .olt (max x (-x)) (Ideal.ofBits .f32 0x7F800000#32) = 1#1) :
    ∃ r : ℝ, x = (r : EReal) := by
  rw [top_word] at h
  have hlt : max x (-x) < ⊤ := by
    simp only [Ideal.cmp, ofBool_eq_one, decide_eq_true_eq] at h
    exact h
  induction x using EReal.rec with
  | bot => simp at hlt
  | coe r => exact ⟨r, rfl⟩
  | top => simp at hlt

/-- `finite_inputs` all ones: each array's entries have absolute value below +∞, so none is ±∞. -/
theorem real_of_pre [Cert.Pre_finite_inputs.Facts]
    (P : FVec Ideal Cert.Pre_finite_inputs.S1048576x4 .f32) (T : FVec Ideal Cert.Pre_finite_inputs.S1048576x50x2 .f32)
    (h : Cert.Pre_finite_inputs.fn (F := Ideal) P T = fun _ => 1#1) :
    (∀ i, ∃ r : ℝ, P i = (r : EReal)) ∧ (∀ i, ∃ r : ℝ, T i = (r : EReal)) := by
  have h0 := congrFun h ValueIdx.ix0
  unfold Cert.Pre_finite_inputs.fn at h0
  dsimp only at h0
  obtain ⟨hP, hT⟩ := IntOp.andi_eq_one.1 h0
  refine ⟨fun i => ?_, fun i => ?_⟩
  · exact real_of_abs_lt (P i) (Host.reduce_andi_all _ _ _ _ _ hP i)
  · exact real_of_abs_lt (T i) (Host.reduce_andi_all _ _ _ _ _ hT i)

end Cert.FiniteInputs

end
-- ==== Proof.lean ====
/-
  The mean over 2^20 rows of a per-row loss, computed two ways. The reference takes, per row and channel, the mean
  over the row's 50 steps, subtracts the predicted mean, squares, sums the two channels and halves; then averages
  over the rows. The kernel streams the rows in 64 blocks of 16384 through two cores' worth of grid steps: per row it
  forms the sum A of the 100 interleaved lanes and the signed sum D (signs +1, -1 alternating), so that the two
  channel means are (A + D)/100 and (A - D)/100 (the named constant 1/100); it adds the block's per-row losses, in
  16 chunks, into an [8, 128] accumulator that is zeroed at each core's first step, and at each core's last step
  stores the sum of the accumulator's entries; the host adds the two cores' sums and divides by 2^20.

  Over the extended reals the two agree where every input entry is real (the precondition): the even lanes sum to
  (A + D)/2 and the odd lanes to (A - D)/2, so the channel means coincide row by row (LossAlgebra), and the kernel's
  order of summation (core, accumulator entry, step, chunk) is a re-indexing of the rows (LossAlgebra.sum_chunks).
  The frames of the two kernel programs are the generated ones; the reference's frame is its generated run.
-/
import proofs.«420667_j27891517620670_4_alg».proof.Defs
import proofs.«420667_j27891517620670_4_alg».proof.Proof.Gen.Kernel
import proofs.«420667_j27891517620670_4_alg».proof.Proof.Gen.Kernel.Skeleton
import proofs.«420667_j27891517620670_4_alg».proof.Proof.Gen.Kernel.Launch
import proofs.«420667_j27891517620670_4_alg».proof.Proof.Gen.Kernel.Points
import proofs.«420667_j27891517620670_4_alg».proof.Proof.Gen.Kernel.Frame
import proofs.«420667_j27891517620670_4_alg».proof.Proof.Gen.KernelIdeal
import proofs.«420667_j27891517620670_4_alg».proof.Proof.Gen.KernelIdeal.Skeleton
import proofs.«420667_j27891517620670_4_alg».proof.Proof.Gen.KernelIdeal.Launch
import proofs.«420667_j27891517620670_4_alg».proof.Proof.Gen.KernelIdeal.Points
import proofs.«420667_j27891517620670_4_alg».proof.Proof.Gen.KernelIdeal.Frame
import proofs.«420667_j27891517620670_4_alg».proof.Proof.Gen.ReferenceIdeal
import proofs.«420667_j27891517620670_4_alg».proof.Proof.Gen.ReferenceIdeal.Run
import proofs.«420667_j27891517620670_4_alg».proof.Proof.Gen.ReferenceIdeal.Read
import proofs.«420667_j27891517620670_4_alg».proof.Proof.Gen.Pre_finite_inputs
import proofs.«420667_j27891517620670_4_alg».proof.Proof.KernelResult
import proofs.«420667_j27891517620670_4_alg».proof.Proof.RefValue
import proofs.«420667_j27891517620670_4_alg».proof.Proof.FiniteInputs
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel likewise. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The two ledger entries: both occurrences of the literal f32(1/100) are named 1/100, which the table gives it. -/
theorem preserves : Cert.preserves_Kernel_KernelIdeal :=
  ⟨IdealRules.named_const.statement Cert.KernelIdeal.κ "inv_100" .f32 0x3C23D70A#32 ((1 / 100 : ℝ) : EReal) rfl,
    IdealRules.named_const.statement Cert.KernelIdeal.κ "inv_100" .f32 0x3C23D70A#32 ((1 / 100 : ℝ) : EReal) rfl⟩

/-- From memories that agree on the arguments, whose entries the precondition makes real, both programs end with the
    mean row loss of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => @Cert.FiniteInputs.real_of_pre Cert.Pre_finite_inputs.Gen.facts _ _ (hpre c)
  refine ⟨fun c => Cert.Rows.result (Cert.KernelIdeal.Totals.predArr m c) (Cert.KernelIdeal.Totals.trueArr m c),
    Cert.KernelIdeal.Result.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  exact Cert.RefValue.ref_value _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
